-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1024 : Shape := ⟨2, ![262144, 1024]⟩
abbrev S262144 : Shape := ⟨1, ![262144]⟩
abbrev S_ : Shape := ⟨0, ![]⟩

class Facts : Prop where
  bcast_S_S262144x1024 : S_.BroadcastsInDim S262144x1024 (![] : Fin 0 → Fin S262144x1024.rank)
  reducesTo_S262144x1024_S_d0_1 : S262144x1024.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x1024 .f32) (main_arg1 : IVec S262144 32) : IVec S_ 1 :=
  let main_v0 : FVec F S262144x1024 .f32 := Host.absf main_arg0
  let main_cst : FVec F S_ .f32 := constant S_ .f32 0x7F800000#32
  let main_v1 : FVec F S262144x1024 .f32 := broadcastInDim S262144x1024 ![] bcast_S_S262144x1024 main_cst
  let main_v2 : IVec S262144x1024 1 := cmpf .olt main_v0 main_v1
  let main_c : IVec S_ 1 := constantI S_ 1 1#1
  let main_v3 : IVec S_ 1 := (fun x v => Host.reduce IntOp.andi x v reducesTo_S262144x1024_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 1 := constantI S_ 1 1#1
  let main_v6 : IVec S_ 1 := (fun x v => Host.reduce IntOp.andi x v reducesTo_S262144_S_d0 h_S_) main_v5 main_c_1
  let main_v7 : IVec S_ 1 := andi main_v3 main_v6
  let main_c_2 : IVec S_ 32 := constantI S_ 32 1024#32
  let main_v8 : IVec S262144 32 := broadcastInDim S262144 ![] bcast_S_S262144 main_c_2
  let main_v9 : IVec S262144 1 := cmpi .slt main_arg1 main_v8
  let main_c_3 : IVec S_ 1 := constantI S_ 1 1#1
  let main_v10 : IVec S_ 1 := (fun x v => Host.reduce IntOp.andi x v reducesTo_S262144_S_d0 h_S_) main_v9 main_c_3
  let main_v11 : IVec S_ 1 := andi main_v7 main_v10
  main_v11
-- ==== Kernel.lean ====
abbrev S262144x1024 : Shape := ⟨2, ![262144, 1024]⟩
abbrev S262144 : Shape := ⟨1, ![262144]⟩
abbrev S_ : Shape := ⟨0, ![]⟩
abbrev S262144x1 : Shape := ⟨2, ![262144, 1]⟩
abbrev S2x8x128 : Shape := ⟨3, ![2, 8, 128]⟩
abbrev S2048x1024 : Shape := ⟨2, ![2048, 1024]⟩
abbrev S2048x1 : Shape := ⟨2, ![2048, 1]⟩
abbrev S1x8x128 : Shape := ⟨3, ![1, 8, 128]⟩
abbrev S1x1 : Shape := ⟨2, ![1, 1]⟩
abbrev S2048 : Shape := ⟨1, ![2048]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 16
  | .vmem => 7
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S262144, .i32⟩
  | .hbm, ⟨6, _⟩ => ⟨S262144, .i32⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S2x8x128, .f32⟩
  | .hbm, ⟨12, _⟩ => ⟨S2x1x1, .f32⟩
  | .hbm, ⟨13, _⟩ => ⟨S2, .f32⟩
  | .hbm, ⟨14, _⟩ => ⟨S_, .f32⟩
  | .hbm, ⟨15, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S262144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v23 : BitVec 1 := Scalar.cmpi .eq arg1 c63_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S262144 : S_.BroadcastsInDim S262144 (![] : Fin 0 → Fin S262144.rank)
  shapeCasts_S262144_S262144x1 : S262144.ShapeCasts S262144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S2048x1024_d1_w32 : S2048x1024.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S262144x1024.size a
  hwx0_0 : ∀ i : grid0.Coords, EltTy.bits .f32 = 32 ∨ (Rect.block (s := S262144x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x1024 : Shape := ⟨2, ![262144, 1024]⟩
abbrev S262144 : Shape := ⟨1, ![262144]⟩
abbrev S262144x1 : Shape := ⟨2, ![262144, 1]⟩
abbrev S_ : Shape := ⟨0, ![]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S262144x1, .i32⟩
  | .hbm, ⟨3, _⟩ => ⟨S_, .i32⟩
  | .hbm, ⟨4, _⟩ => ⟨S262144x1, .i32⟩
  | .hbm, ⟨5, _⟩ => ⟨S262144x1, .i1⟩
  | .hbm, ⟨6, _⟩ => ⟨S_, .i32⟩
  | .hbm, ⟨7, _⟩ => ⟨S262144x1, .i32⟩
  | .hbm, ⟨8, _⟩ => ⟨S262144x1, .i32⟩
  | .hbm, ⟨9, _⟩ => ⟨S262144x1, .i32⟩
  | .hbm, ⟨10, _⟩ => ⟨S262144x1x1, .i32⟩
  | .hbm, ⟨11, _⟩ => ⟨S1, .i32⟩
  | .hbm, ⟨12, _⟩ => ⟨S_, .i32⟩
  | .hbm, ⟨13, _⟩ => ⟨S262144x1x1, .i32⟩
  | .hbm, ⟨14, _⟩ => ⟨S262144x1x1, .i1⟩
  | .hbm, ⟨15, _⟩ => ⟨S1x1x1, .i32⟩
  | .hbm, ⟨16, _⟩ => ⟨S262144x1x1, .i32⟩
  | .hbm, ⟨17, _⟩ => ⟨S262144x1x1, .i1⟩
  | .hbm, ⟨18, _⟩ => ⟨S262144x1x1, .i1⟩
  | .hbm, ⟨19, _⟩ => ⟨S_, .i1⟩
  | .hbm, ⟨20, _⟩ => ⟨S262144x1, .i1⟩
  | .hbm, ⟨21, _⟩ => ⟨S262144x1, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S262144, .f32⟩
  | .hbm, ⟨26, _⟩ => ⟨S262144, .f32⟩
  | .hbm, ⟨27, _⟩ => ⟨S_, .f32⟩
  | .hbm, ⟨28, _⟩ => ⟨S_, .f32⟩
  | .hbm, ⟨29, _⟩ => ⟨S_, .f32⟩
  | _, _ => ⟨S262144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  shapeCasts_S262144x1_S262144 : S262144x1.ShapeCasts S262144
  reducesTo_S262144_S_d0 : S262144.ReducesTo [0] S_
  gather_S262144x1024_S262144x1x1_S262144x1_n_1_0_0_1_2_11_wf : GatherDims.WF S262144x1024 S262144x1x1 S262144x1 [] [1] [0] [1] [0] 2 ![1, 1]

variable [Facts₀]

def gather_S262144x1024_S262144x1x1_S262144x1_n_1_0_0_1_2_11 : GatherDims S262144x1024 S262144x1x1 S262144x1 where
  offsetDims := []
  collapsedSliceDims := [1]
  operandBatchingDims := [0]
  startIndicesBatchingDims := [0]
  startIndexMap := [1]
  indexVectorDim := 2
  sliceSizes := ![1, 1]
  wf := gather_S262144x1024_S262144x1x1_S262144x1_n_1_0_0_1_2_11_wf

class Facts : Prop extends Facts₀ where

variable [Facts]
-- ==== Proof.Pieces.lean ====
/-
  What one grid point leaves behind, as values.

  The body keeps a running total in a one-entry scratch. At the first tile of a half it stores zero there, reads it
  back and stores the total plus the tile's sum; at a later tile it reads the total the tile before left and stores
  that plus the tile's sum; at the last tile of a half it also reads the new total back and stores it, spread over
  the half's 8 × 128 output block. Each of these is one store that covers its buffer, so what the buffer holds
  afterwards is that store's value, with every load replaced by what the loaded buffer held.
-/
import proofs.«409475_j54322746359839_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first tile of a half the scratch ends at zero plus the tile's sum. -/
theorem scratch_first (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x8x128 .f32) (h4 : a4.IsWhole)
    (a5 : Memref sig .tc .vmem S1x1 .f32) (h5 : a5.IsWhole) (hc0 : cond0_0 i) (hc1 : ¬cond0_1 i)
    (x0 : Vec F S2048x1024 .f32) (x1 : Vec F S2048x1 .i32) :
    sout0_A_0 c i a2 h2 a3 h3 a4 h4 a5 h5 hc0 hc1 x0 x1 = k0_pay2 x1 x0 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h5.read_unread, View.ld_unit_zero (S := S2048x1024) hz2,
    View.ld_unit_zero (S := S2048x1) hz2, View.ld_unit_zero (S := S1x1) hz2]

/-- At a middle tile the scratch ends at what it held plus the tile's sum. -/
theorem scratch_middle (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x8x128 .f32) (h4 : a4.IsWhole)
    (a5 : Memref sig .tc .vmem S1x1 .f32) (h5 : a5.IsWhole) (hc0 : ¬cond0_0 i) (hc1 : ¬cond0_1 i)
    (x0 : Vec F S2048x1024 .f32) (x1 : Vec F S2048x1 .i32) (xs : Vec F S1x1 .f32) :
    sout0_B_0 c i a2 h2 a3 h3 a4 h4 a5 h5 hc0 hc1 x0 x1 xs = k0_pay2 x1 x0 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz2]
  simp only [View.readAt_eq_ld, h2.read_unread, h3.read_unread, h5.read_unread, View.ld_unit_zero (S := S2048x1024) hz2,
    View.ld_unit_zero (S := S2048x1) hz2, View.ld_unit_zero (S := S1x1) hz2]

/-- At the last tile of a half the scratch ends at what it held plus the tile's sum, -/
theorem scratch_last (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x8x128 .f32) (h4 : a4.IsWhole)
    (a5 : Memref sig .tc .vmem S1x1 .f32) (h5 : a5.IsWhole) (hc0 : ¬cond0_0 i) (hc1 : cond0_1 i)
    (x0 : Vec F S2048x1024 .f32) (x1 : Vec F S2048x1 .i32) (xs : Vec F S1x1 .f32) :
    sout0_C_0 c i a2 h2 a3 h3 a4 h4 a5 h5 hc0 hc1 x0 x1 xs = k0_pay2 x1 x0 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S2048x1024) hz2,
    View.ld_unit_zero (S := S2048x1) hz2, View.ld_unit_zero (S := S1x1) hz2]

/-- and the half's output block at that new total, spread over its 8 × 128 entries. -/
theorem block_last (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x8x128 .f32) (h4 : a4.IsWhole)
    (a5 : Memref sig .tc .vmem S1x1 .f32) (h5 : a5.IsWhole) (hc0 : ¬cond0_0 i) (hc1 : cond0_1 i)
    (x0 : Vec F S2048x1024 .f32) (x1 : Vec F S2048x1 .i32) (xs : Vec F S1x1 .f32) :
    out0_C_2 c i a2 h2 a3 h3 a4 h4 a5 h5 hc0 hc1 x0 x1 xs = k0_pay3 (k0_pay2 x1 x0 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3]
  simp only [View.readAt_eq_ld, h2.read_unread, h3.read_unread, h5.read_unread, View.ld_unit_zero (S := S2048x1024) hz2,
    View.ld_unit_zero (S := S2048x1) hz2, View.ld_unit_zero (S := S1x1) hz2, View.readCov_unit_zero (S := S1x1) _ hz2]

end Cert.KernelIdeal.Pieces

end
-- ==== Proof.LibKeepdimsLayout.lean ====
/-
  Small layout facts for rank-2 arrays with one long axis, read at an index.

  A vector of `a` entries turned into an `a × 1` column (by a shape cast in a kernel body, by a `broadcast_in_dim` on
  the host), a column spread along the second axis, a vector turned into a `1 × b` row and a row spread down the first
  axis each read one entry of their operand; a sum along the second axis at row `p` is the sum over `k` of the entries
  `(p, k)`, in a kernel body and on the host (where the initial value comes first).
-/
import Idealize.ShloMosaic.PureOps.Ideal.Laws
import Idealize.ShloMosaic.Lib.ValueIdx
import Idealize.ShloMosaic.Lib.IdealHost
import Idealize.ShloMosaic.Lib.Pipeline.Value

noncomputable section

namespace Cert.Layout

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` broadcast along axis 0 reads, at `(i, u)`, the vector at `i`. -/
theorem bcast_a_a1_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` broadcast reads, at `(p, c)`, the column at `p`. -/
theorem bcast_a1_ab_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` broadcast along axis 1 reads, at `(u, c)`, the vector at `c`. -/
theorem bcast_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` broadcast reads, at `(p, c)`, the row at `c`. -/
theorem bcast_1b_ab_apply {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply ![0, 1] h x (ix2 p c) (ix2 (0 : Fin 1) c) fun ax => ?_
  match ax with
  | ⟨0, _⟩ => rfl
  | ⟨1, _⟩ =>
    show c.val = if b = 1 then 0 else c.val
    split
    · have := c.isLt; omega
    · rfl

/-- The index over row `p` with `k` inserted on the second axis is `(p, k)`. -/
theorem lift_axis1 {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- A kernel body's sum of an `[a, b]` value along its second axis reads, at row `p`, `Σ_k` of the entries `(p, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_axis1 h p k)

/-- The host's sum of an `[a, b]` array along its second axis reads, at row `p`, the initial value plus `Σ_k` of the
    entries `(p, k)`. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  refine (Ideal.hostReduceAdd_single h' h x (init (Shape.Idx.first hu)) (ix1 p)).trans ?_
  exact congrArg (init (Shape.Idx.first hu) + ·) (Finset.sum_congr rfl fun k _ => congrArg x (lift_axis1 h p k))

end Cert.Layout

end
-- ==== Proof.LibColSum.lean ====
/-
  A sum along the FIRST axis of a rank-2 value, read at an index.

  A kernel body's `vector.multi_reduction <add>` of an `[a, b]` value over axis 0 leaves a vector of `b` entries;
  entry `q` is the sum over `k` of the entries `(k, q)` (a column's sum: what `jnp.sum(x, axis=0)` of a column of
  per-row terms lowers to).
-/
import Idealize.ShloMosaic.PureOps.Ideal.Laws
import Idealize.ShloMosaic.Lib.ValueIdx

noncomputable section

namespace Cert.Layout

open Idealize.ShloMosaic Idealize.ShloMosaic.ValueIdx

/-- The index over column `q` with `k` inserted on the first axis is `(k, q)`. -/
theorem lift_axis0 {a b : ℕ} (h : (⟨2, ![a, b]⟩ : Shape).Reduces [0] ⟨1, ![b]⟩) (q : Fin b) (k : Fin a) :
    h.lift (ix1 q) k = ix2 k q := by
  funext c
  apply Fin.ext
  match c with
  | ⟨0, _⟩ => rfl
  | ⟨1, _⟩ => rfl

/-- A kernel body's sum of an `[a, b]` value along its first axis reads, at column `q`, `Σ_k` of the entries `(k, q)`. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  exact Finset.sum_congr rfl fun k _ => congrArg src (lift_axis0 h q k)

end Cert.Layout

end
-- ==== Proof.Payload.lean ====
/-
  The body's arithmetic, read at an index, at the ideal values.

  A tile holds 2048 rows of 1024 probabilities and one label word per row. For row `r` the body compares the column
  numbers with the row's label, keeps the probability where they agree and zero elsewhere, and adds up the row: the
  probability under the label. It takes `0 - log` of that, adds the 2048 rows up and adds the result to the running
  total. The last tile of a half spreads the total over an 8 × 128 block.
-/
import proofs.«409475_j54322746359839_2_alg».proof.Proof.Gen.KernelIdeal.Skeleton
import proofs.«409475_j54322746359839_2_alg».proof.Proof.LibKeepdimsLayout
import proofs.«409475_j54322746359839_2_alg».proof.Proof.LibColSum
import Idealize.ShloMosaic.Lib.Pipeline.Value
import Idealize.ShloMosaic.Lib.ValueIdx
import Idealize.ShloMosaic.PureOps.Ideal.Laws
import Idealize.ShloMosaic.Lib.StableHlo.Predicate

set_option maxRecDepth 16384

noncomputable section

open Idealize.ShloMosaic Idealize.ShloMosaic.ValueIdx

namespace Cert.KernelIdeal.Payload

open Cert.KernelIdeal Cert.KernelIdeal.Gen Cert.Layout

/-- Keeping, out of 1024 values, the one whose number is the word `w` and adding up: the value numbered `w`, when
    `w` is below 1024. -/
theorem onehot_sum (w : BitVec 32) (hw : w.toNat < 1024) (f : Fin 1024 → EReal) :
    (∑ k : Fin 1024, if BitVec.ofNat 32 k.val = w then f k else 0) = f ⟨w.toNat, hw⟩ := by
  rw [Finset.sum_eq_single (⟨w.toNat, hw⟩ : Fin 1024)]
  · rw [if_pos]
    apply BitVec.eq_of_toNat_eq
    simp only [BitVec.toNat_ofNat]
    omega
  · intro k _ hk
    rw [if_neg]
    intro h
    apply hk
    apply Fin.ext
    have := congrArg BitVec.toNat h
    simp only [BitVec.toNat_ofNat] at this
    have hk' := k.isLt
    show k.val = w.toNat
    omega
  · intro h
    exact absurd (Finset.mem_univ _) h

/-- The probability the mask keeps in row `r` of a tile: the sum over the columns of the entry where the column's
    number is the row's label word, and zero elsewhere. -/
def kept (x1 : Vec Ideal S2048x1 .i32) (x0 : Vec Ideal S2048x1024 .f32) (r : Fin 2048) : EReal :=
  ∑ k : Fin 1024, if BitVec.ofNat 32 k.val = (x1 (ix2 r 0) : BitVec 32) then x0 (ix2 r k) else 0

/-- One tile's update of the running total: the total so far plus the sum over the tile's rows of `0 - log` of the
    kept probability. -/
theorem tile_update (x1 : Vec Ideal S2048x1 .i32) (x0 : Vec Ideal S2048x1024 .f32) (xs : Vec Ideal S1x1 .f32) :
    k0_pay2 (F := Ideal) x1 x0 xs (ix2 0 0) = xs (ix2 0 0) + ∑ r : Fin 2048, (0 - Ideal.log (kept x1 x0 r)) := by
  unfold k0_pay2
  dsimp only
  rw [shapeCast_self, addf_apply]
  congr 1
  rw [shapeCast_a_a1_apply]
  refine (colSum_apply _ _ _ _ _ (0 : Fin 1)).trans ?_
  refine Finset.sum_congr rfl fun r _ => ?_
  rw [subf_apply, broadcast_apply]
  show (FloatOps.ofBits .f32 0#32 : Ideal .f32) - Ideal.log (shapeCast S2048x1 _ shapeCasts_S2048_S2048x1 (ix2 r 0)) = _
  rw [Ideal.ofBits_def, Ideal.ofBits_zero_f32, shapeCast_a_a1_apply]
  refine congrArg (fun z => (0 : EReal) - Ideal.log z) ((rowSum_apply _ _ _ _ _ r).trans ?_)
  unfold kept
  refine Finset.sum_congr rfl fun k _ => ?_
  rw [select_apply, broadcast_apply]
  show Scalar.select (IntOp.cmpi .eq (iota .tc S2048x1024 32 [1] iota_S2048x1024_d1_w32 (ix2 r k))
      (broadcastTo S2048x1024 (shapeCast S2048x1 x1 shapeCasts_S2048x1_S2048x1) broadcasts_S2048x1_S2048x1024 (ix2 r k)))
      (x0 (ix2 r k)) (0 : EReal) = _
  rw [iota_single_apply, broadcastTo_a1_ab_apply, shapeCast_self]
  show Scalar.select (IntOp.cmpi .eq (BitVec.ofNat 32 k.val) (x1 (ix2 r 0))) (x0 (ix2 r k)) (0 : EReal) = _
  by_cases h : BitVec.ofNat 32 k.val = (x1 (ix2 r 0) : BitVec 32)
  · rw [if_pos h, StableHlo.Predicate.cmpi_eq_iff.mpr h, select_one]
  · rw [if_neg h, eq_zero_of_ne_one (fun hc => h (StableHlo.Predicate.cmpi_eq_iff.mp hc)), select_zero]

/-- The block the last tile of a half stores holds the total at every entry. -/
theorem spread (v : Vec Ideal S1x1 .f32) (a : Fin 8) (b : Fin 128) :
    k0_pay3 (F := Ideal) v (ix3 0 a b) = v (ix2 0 0) := by
  unfold k0_pay3
  refine (broadcastTo_apply _ _ (ix3 0 a b) (ix3 0 0 0) fun ax => ?_).trans ?_
  · match ax with
    | ⟨0, _⟩ => rfl
    | ⟨1, _⟩ => rfl
    | ⟨2, _⟩ => rfl
  · exact shapeCast_apply v _ (ix3 0 0 0) (ix2 0 0) (by rw [Shape.rowMajor_val_three, Shape.rowMajor_val_two]; rfl)

end Cert.KernelIdeal.Payload

end
-- ==== Proof.RunningSum.lean ====
/-
  The running total over the tiles of a half, as a sum over a range.

  Tiles are numbered along the grid; a half is 64 consecutive tiles, the first at a multiple of 64. After tile `n`
  the running total is the sum of the tiles' sums from the half's first tile up to `n`: the one term at a half's first
  tile, one more term at each later tile, all 64 at the half's last tile.
-/
import Mathlib.Data.EReal.Operations
import Mathlib.Algebra.BigOperators.Intervals

namespace Cert.RunningSum

open Finset

variable {M : Type} [AddCommMonoid M]

/-- The sum of `f` over the tiles of `n`'s half up to `n`. -/
def upTo (f : ℕ → M) (n : ℕ) : M := ∑ k ∈ Finset.range (n % 64 + 1), f (n - n % 64 + k)

/-- At a half's first tile it is that tile's term. -/
theorem upTo_first (f : ℕ → M) (n : ℕ) (h0 : n % 64 = 0) : upTo f n = f n := by
  unfold upTo
  rw [h0, Finset.sum_range_one]
  rfl

/-- At a later tile it is the total up to the tile before plus this tile's term. -/
theorem upTo_next (f : ℕ → M) (n : ℕ) (h0 : ¬(n + 1) % 64 = 0) : upTo f (n + 1) = upTo f n + f (n + 1) := by
  unfold upTo
  have e1 : (n + 1) % 64 = n % 64 + 1 := by omega
  have e2 : n + 1 - (n % 64 + 1) = n - n % 64 := by omega
  rw [e1, e2, Finset.sum_range_succ]
  congr 2
  omega

/-- At the last tile of half `i` it is the sum over the half's 64 tiles. -/
theorem upTo_last (f : ℕ → M) (i : ℕ) : upTo f (64 * i + 63) = ∑ k ∈ Finset.range 64, f (64 * i + k) := by
  unfold upTo
  have e1 : (64 * i + 63) % 64 = 63 := by omega
  rw [e1]
  rfl

end Cert.RunningSum
-- ==== Proof.Tiles.lean ====
/-
  From grid points to the kernel's output array.

  The grid has 128 points: two halves of 64 tiles, tile `n` holding rows `2048 n … 2048 n + 2047`. Each tile
  contributes the sum over its rows of `0 - log` of the probability its label keeps. By induction on the point the
  scratch holds, after tile `n`, the sum of the contributions of the tiles of `n`'s half up to `n`. At the last tile of
  a half that running total is the half's total, and it is what the point writes back, to every entry of block `n / 64`
  of the `2 × 8 × 128` output. The two blocks written back cover the output, so it ends holding, at `(i, a, b)`, half
  `i`'s total.
-/
import proofs.«409475_j54322746359839_2_alg».proof.Proof.Pieces
import proofs.«409475_j54322746359839_2_alg».proof.Proof.Payload
import proofs.«409475_j54322746359839_2_alg».proof.Proof.RunningSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Pieces Cert.KernelIdeal.Payload Cert.RunningSum

variable (m : (ℓ : Loc nD τ sig) → Buf (Elt Ideal) ℓ) (ρ : Dev nD → PrngReg)

/-- Tile `t`'s block of probabilities and of label words, at their literal types. -/
abbrev pblk (c : Dev nD) (t : Fin cfg0.N) : Vec Ideal S2048x1024 .f32 := iblk m c 0 t
abbrev tblk (c : Dev nD) (t : Fin cfg0.N) : Vec Ideal S2048x1 .i32 := iblk m c 1 t

/-- What tile `n` contributes: the sum over its rows of `0 - log` of the kept probability (zero past the grid). -/
def tileSum (c : Dev nD) (n : ℕ) : EReal :=
  if h : n < cfg0.N then ∑ r : Fin 2048, (0 - Ideal.log (kept (tblk m c ⟨n, h⟩) (pblk m c ⟨n, h⟩) r)) else 0

theorem tileSum_eq (c : Dev nD) (t : Fin cfg0.N) :
    tileSum m c t.val = ∑ r : Fin 2048, (0 - Ideal.log (kept (tblk m c t) (pblk m c t) r)) := by
  unfold tileSum
  rw [dif_pos t.isLt]

/-- The reset stores zero. -/
theorem zero_entry : (k0_pay1 (F := Ideal)) (ix2 0 0) = 0 := by
  unfold k0_pay1
  rw [shapeCast_self, broadcast_apply]
  exact Ideal.ofBits_zero_f32

/-- After tile `n` the scratch holds the sum of the contributions of the tiles of `n`'s half up to `n`. -/
theorem scratch_eq (c : Dev nD) : ∀ (n : ℕ) (h : n < cfg0.N), (outsAt0 m c n h).2 (ix2 0 0) = upTo (tileSum m c) n
  | 0, h => by
    rw [outsAt0_A m c ⟨0, h⟩ rfl (show ¬(0 : ℕ) % 64 = 63 by decide)]
    dsimp only
    refine (congrFun (scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (pblk m c ⟨0, h⟩) (tblk m c ⟨0, h⟩)) (ix2 0 0)).trans ?_
    refine (tile_update (tblk m c ⟨0, h⟩) (pblk m c ⟨0, h⟩) (k0_pay1 (F := Ideal))).trans ?_
    rw [zero_entry, zero_add, upTo_first _ _ rfl, tileSum_eq m c ⟨0, h⟩]
  | n + 1, h => by
    by_cases h0 : (n + 1) % 64 = 0
    · have h1 : ¬(n + 1) % 64 = 63 := by omega
      rw [outsAt0_A m c ⟨n + 1, h⟩ h0 h1]
      dsimp only
      refine (congrFun (scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (pblk m c ⟨n + 1, h⟩) (tblk m c ⟨n + 1, h⟩)) (ix2 0 0)).trans ?_
      refine (tile_update (tblk m c ⟨n + 1, h⟩) (pblk m c ⟨n + 1, h⟩) (k0_pay1 (F := Ideal))).trans ?_
      rw [zero_entry, zero_add, upTo_first _ _ h0, tileSum_eq m c ⟨n + 1, h⟩]
    · by_cases h1 : (n + 1) % 64 = 63
      · rw [outsAt0_C m c ⟨n + 1, h⟩ h0 h1]
        dsimp only
        refine (congrFun (scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (pblk m c ⟨n + 1, h⟩) (tblk m c ⟨n + 1, h⟩) (outsAt0 m c n (Nat.lt_of_succ_lt h)).2) (ix2 0 0)).trans ?_
        refine (tile_update (tblk m c ⟨n + 1, h⟩) (pblk m c ⟨n + 1, h⟩) (outsAt0 m c n (Nat.lt_of_succ_lt h)).2).trans ?_
        rw [scratch_eq c n (Nat.lt_of_succ_lt h), upTo_next _ _ h0, tileSum_eq m c ⟨n + 1, h⟩]
      · rw [outsAt0_B m c ⟨n + 1, h⟩ h0 h1]
        dsimp only
        refine (congrFun (scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (pblk m c ⟨n + 1, h⟩) (tblk m c ⟨n + 1, h⟩) (outsAt0 m c n (Nat.lt_of_succ_lt h)).2) (ix2 0 0)).trans ?_
        refine (tile_update (tblk m c ⟨n + 1, h⟩) (pblk m c ⟨n + 1, h⟩) (outsAt0 m c n (Nat.lt_of_succ_lt h)).2).trans ?_
        rw [scratch_eq c n (Nat.lt_of_succ_lt h), upTo_next _ _ h0, tileSum_eq m c ⟨n + 1, h⟩]

/-- Half `i`'s total: the sum of the contributions of its 64 tiles. -/
def halfTotal (c : Dev nD) (i : ℕ) : EReal := ∑ k ∈ Finset.range 64, tileSum m c (64 * i + k)

/-- At the last tile of a half the output's staging block holds the half's total at every entry. -/
theorem block_eq (c : Dev nD) (t : Fin cfg0.N) (h1 : t.val % 64 = 63) (a : Fin 8) (b : Fin 128) :
    (outsAt0 m c t.val t.isLt).1 (ix3 0 a b) = halfTotal m c (t.val / 64) := by
  have h0 : ¬t.val % 64 = 0 := by omega
  obtain ⟨n, hn⟩ : ∃ n, t.val = n + 1 := ⟨t.val - 1, by omega⟩
  have hlt : n < cfg0.N := by have := t.isLt; omega
  have hprev : (outsAt0 m c (t.val - 1) (Nat.lt_of_le_of_lt (Nat.sub_le _ _) t.isLt)).2 (ix2 0 0) = upTo (tileSum m c) n := by
    have e : t.val - 1 = n := by omega
    simp only [e]
    exact scratch_eq m c n hlt
  rw [outsAt0_C m c t h0 h1]
  dsimp only
  refine (congrFun (block_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (pblk m c t) (tblk m c t)
    (outsAt0 m c (t.val - 1) (Nat.lt_of_le_of_lt (Nat.sub_le _ _) t.isLt)).2) (ix3 0 a b)).trans ?_
  refine (spread _ a b).trans ?_
  refine (tile_update (tblk m c t) (pblk m c t) _).trans ?_
  rw [hprev, ← tileSum_eq m c t]
  unfold halfTotal
  have e : t.val = 64 * (t.val / 64) + 63 := by omega
  rw [← upTo_last, ← e, hn, upTo_next _ _ (by rw [← hn]; exact h0)]

/-- The output's block index at a point: the point's half, on the first axis. -/
theorem out_index : ∀ t : Fin cfg0.N, win0_2.index t (0 : Fin 3) = t.val / 64 ∧ win0_2.index t (1 : Fin 3) = 0 ∧ win0_2.index t (2 : Fin 3) = 0 :=
  (by decide +kernel : ∀ t : Fin grid0.N, _)

/-- The output array after the run: half `i`'s total at every entry `(i, a, b)`. -/
def halves (c : Dev nD) : Buf (Elt Ideal) ((c : Thread nD τ).loc main_v2) := fun i => halfTotal m c (i 0).val

/-- What a point that writes back writes is its block of that array. -/
theorem flushed_eq (c : Dev nD) (t : Fin cfg0.N) (hf : (cfg0.win 2).flush t = true) :
    (dats m 0 c).flushed 2 t = ((cfg0.win 2).blk t).view.read (Elt Ideal) (halves m c) := by
  have h1 : t.val % 64 = 63 := (flush0_2 t).mp hf
  show (cfg0.win 2).cut (grid0.coords t) ((dats m 0 c).after 2 t) = _
  rw [after0_2]
  funext j
  show (outsAt0 m c t.val t.isLt).1 j = halves m c (((cfg0.win 2).blk t).view.emb j)
  obtain ⟨u, a, b, rfl⟩ : ∃ (u : Fin 1) (a : Fin 8) (b : Fin 128), j = ix3 u a b := ⟨j 0, j 1, j 2, eq_ix3 j⟩
  obtain rfl : u = 0 := Subsingleton.elim _ _
  rw [block_eq m c t h1 a b]
  unfold halves
  congr 1
  show t.val / 64 = win0_2.index t (0 : Fin 3) * 1 + 1 * 0
  rw [(out_index t).1]
  omega

/-- An index of the output is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- The two points that write back cover the output: entry `(i, a, b)` lies in the block of the last tile of half `i`. -/
theorem cover (c : Dev nD) (i : S2x8x128.Idx) :
    ∃ t : Fin cfg0.N, (cfg0.win 2).flush t = true ∧ i ∈ ((cfg0.win 2).blk t).view.set := by
  have hN : cfg0.N = 128 := N_0
  have hi0 : (i 0).val < 2 := (i 0).isLt
  have hi1 : (i 1).val < 8 := (i 1).isLt
  have hi2 : (i 2).val < 128 := (i 2).isLt
  refine ⟨⟨64 * (i 0).val + 63, by omega⟩, (flush0_2 _).mpr (by show (64 * (i 0).val + 63) % 64 = 63; omega), ?_⟩
  rw [mem_blk]
  obtain ⟨e0, e1, e2⟩ := out_index ⟨64 * (i 0).val + 63, by omega⟩
  intro a
  match a with
  | ⟨0, _⟩ =>
    show win0_2.index _ (0 : Fin 3) * 1 ≤ (i 0).val ∧ (i 0).val < win0_2.index _ (0 : Fin 3) * 1 + 1
    rw [e0]; show (64 * (i 0).val + 63) / 64 * 1 ≤ (i 0).val ∧ (i 0).val < (64 * (i 0).val + 63) / 64 * 1 + 1; omega
  | ⟨1, _⟩ =>
    show win0_2.index _ (1 : Fin 3) * 8 ≤ (i 1).val ∧ (i 1).val < win0_2.index _ (1 : Fin 3) * 8 + 8
    rw [e1]; omega
  | ⟨2, _⟩ =>
    show win0_2.index _ (2 : Fin 3) * 128 ≤ (i 2).val ∧ (i 2).val < win0_2.index _ (2 : Fin 3) * 128 + 128
    rw [e2]; omega

/-- So the output array ends holding the halves' totals. -/
theorem final (c : Dev nD) : (dats m 0 c).arrAt 2 cfg0.N = halves m c :=
  (dats m 0 c).arrAt_eq_of_cover 2 (halves m c) (flushed_eq m c) (cover c)

end Cert.KernelIdeal.Tiles

end
-- ==== Proof.RowLog.lean ====
/-
  The per-row quantity both programs sum: the logarithm of the probability a row's label picks.

  Row `n` of the 262144 × 1024 array of probabilities `P` has a label word `T n`; the column it names is the word's
  value (taken below 1024, which changes nothing for a label in range). `rowLog P T n` is the logarithm of that
  entry, on the extended reals (`log 0 = ⊥`), and zero past the last row.
-/
import Idealize.ShloMosaic.PureOps.Ideal
import Idealize.ShloMosaic.Lib.ValueIdx

noncomputable section

namespace Cert.RowLog

open Idealize.ShloMosaic Idealize.ShloMosaic.ValueIdx

/-- The column a label word names. -/
def colOf (w : BitVec 32) : Fin 1024 := ⟨w.toNat % 1024, Nat.mod_lt _ (by decide)⟩

theorem colOf_of_lt (w : BitVec 32) (hw : w.toNat < 1024) : colOf w = ⟨w.toNat, hw⟩ :=
  Fin.ext (Nat.mod_eq_of_lt hw)

/-- The logarithm of the probability row `n`'s label picks. -/
def rowLog (P : (⟨2, ![262144, 1024]⟩ : Shape).Idx → EReal) (T : (⟨1, ![262144]⟩ : Shape).Idx → BitVec 32) (n : ℕ) : EReal :=
  if h : n < 262144 then Ideal.log (P (ix2 (⟨n, h⟩ : Fin 262144) (colOf (T (ix1 (⟨n, h⟩ : Fin 262144)))))) else 0

/-- The logarithm of a real number is not `⊤`. -/
theorem log_ne_top_of_real (x : EReal) (h1 : x ≠ ⊤) : Ideal.log x ≠ ⊤ := by
  induction x using EReal.rec with
  | bot => simp
  | coe r =>
    rw [Ideal.log_coe]
    split
    · exact bot_ne_top
    · exact EReal.coe_ne_top _
  | top => exact absurd rfl h1

/-- With every probability below `⊤`, no row's logarithm is `⊤`. -/
theorem rowLog_ne_top (P : (⟨2, ![262144, 1024]⟩ : Shape).Idx → EReal) (T : (⟨1, ![262144]⟩ : Shape).Idx → BitVec 32)
    (hP : ∀ i, P i ≠ ⊤) (n : ℕ) : rowLog P T n ≠ ⊤ := by
  unfold rowLog
  split
  · exact log_ne_top_of_real _ (hP _)
  · exact EReal.zero_ne_top

end Cert.RowLog

end
-- ==== Proof.LibTRefCasts.lean ====
/-
  A typed reference's two transports are inverse to each other.

  A module-local function's operations are built over references that carry the type of the tensor value they hold;
  a function stated at the value's type is moved to the buffer's own type along the recorded equality of types, and
  back. A composed term over such operations therefore carries, around every intermediate value, the transport to
  the buffer's type followed by the transport back. The two cancel, whatever the reference and whatever the value.
-/
import Idealize.ShloMosaic.Lib.StableHlo

namespace Idealize.ShloMosaic.StableHlo.TRef

variable {sig : RefSig} {Val : EltTy → Type} {T : BufTy}

/-- To the buffer's type and back is the identity. -/
theorem ofBuf_toBuf (x : TRef sig T) (v : T.Contents Val) : x.ofBuf (x.toBuf v) = v := by
  obtain ⟨r, h1, h2, h3⟩ := x
  subst h1
  rfl

/-- From the buffer's type and back is the identity. -/
theorem toBuf_ofBuf (x : TRef sig T) (v : x.ref.ty.Contents Val) : x.toBuf (x.ofBuf v) = v := by
  obtain ⟨r, h1, h2, h3⟩ := x
  subst h1
  rfl

end Idealize.ShloMosaic.StableHlo.TRef
-- ==== Proof.Rows.lean ====
/-
  A tile's contribution in terms of the argument arrays.

  Before the region the host clamps every label into `[0, 1023]` and reshapes the labels to a column; a label already in
  range is left as it is. Tile `t` reads rows `t * 2048 … t * 2048 + 2047` of the probabilities and of that column. The
  one-hot sum along a row then keeps exactly the probability in the label's column, so the tile contributes the sum over
  its rows of `0 - rowLog`.
-/
import proofs.«409475_j54322746359839_2_alg».proof.Proof.Tiles
import proofs.«409475_j54322746359839_2_alg».proof.Proof.RowLog
import proofs.«409475_j54322746359839_2_alg».proof.Proof.LibTRefCasts
import Idealize.ShloMosaic.Lib.StableHlo.Run
import Idealize.ShloMosaic.Lib.StableHlo.Predicate

set_option maxRecDepth 16384

noncomputable section

open Idealize.ShloMosaic Idealize.ShloMosaic.TcCoe Idealize.SL.Sem Idealize.ShloMosaic.StableHlo Idealize.ShloMosaic.ValueIdx

namespace Cert.KernelIdeal.Rows

open Cert.KernelIdeal Cert.KernelIdeal.Gen Cert.KernelIdeal.Tiles Cert.KernelIdeal.Payload Cert.RowLog Cert.Layout

variable (m : (ℓ : Loc nD τ sig) → Buf (Elt Ideal) ℓ)

/-- The probabilities and the labels as launched, at their literal types. -/
abbrev probs (c : Dev nD) : S262144x1024.Idx → EReal := m ((c : Thread nD τ).loc main_arg0)
abbrev labels (c : Dev nD) : S262144.Idx → BitVec 32 := m ((c : Thread nD τ).loc main_arg1)

/-- A word in `[0, 1023]` is its own clamp into that range. -/
theorem clamp_id (w : BitVec 32) (hw : w.toNat < 1024) : IntOp.minsi 1023#32 (IntOp.maxsi 0#32 w) = w := by
  have hti : w.toInt = w.toNat := Predicate.toInt_eq_toNat_of_lt (by omega)
  have h0 : (0#32 : BitVec 32).toInt = 0 := by decide
  have h1 : (1023#32 : BitVec 32).toInt = 1023 := by decide
  have hmax : IntOp.maxsi 0#32 w = w := by
    unfold IntOp.maxsi
    split <;> rename_i hc <;> simp only [BitVec.slt, hti, h0, decide_eq_true_eq] at hc
    all_goals first | rfl | omega
  rw [hmax]
  unfold IntOp.minsi
  split <;> rename_i hc <;> simp only [BitVec.slt, hti, h1, decide_eq_true_eq] at hc
  all_goals first | rfl | omega

/-- The label column the region finds: every label clamped into `[0, 1023]`, as a `262144 × 1` column. -/
theorem column_eq (c : Dev nD) : (V m c main_v1 : S262144x1.Idx → BitVec 32)
    = shapeCast S262144x1 (minsi (broadcastInDim S262144 ![] bcast_S_S262144 (constantI S_ 32 1023#32))
        (maxsi (broadcastInDim S262144 ![] bcast_S_S262144 (constantI S_ 32 0#32)) (labels m c))) shapeCasts_S262144_S262144x1 := by
  dsimp only [Gen.V, Gen.V0]
  simp only [hostOps0, hostOps0_1, hostOps0_2, List.flatten_cons, List.flatten_nil, List.append_nil, List.cons_append, List.nil_append]
  after_results
  simp only [TRef.ofBuf_toBuf]
  simp only [TRef.ofBuf, TRef.toBuf, cast_eq, id]
  rfl

/-- Row `r` of tile `t`, among all rows. -/
def rowOf (t : Fin cfg0.N) (r : Fin 2048) : Fin 262144 :=
  ⟨t.val * 2048 + r.val, by have := t.isLt; have hN : cfg0.N = 128 := N_0; have := r.isLt; omega⟩

/-- The input windows' block indices at a point: the point's number on the row axis. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A tile's block of probabilities reads the argument at the tile's rows. -/
theorem pblk_apply (c : Dev nD) (t : Fin cfg0.N) (r : Fin 2048) (k : Fin 1024) :
    pblk m c t (ix2 r k) = probs m c (ix2 (rowOf t r) k) := by
  obtain ⟨e0, e1, -, -⟩ := in_index t
  show iblk m c 0 t (ix2 r k) = _
  unfold iblk
  rw [View.read_apply]
  show V m c main_arg0 _ = _
  rw [V_main_arg0]
  refine congrArg (probs m c) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 1024 + 1 * k.val = k.val; rw [e1]; omega

/-- A tile's block of label words reads the clamped label of the tile's rows. -/
theorem tblk_apply (c : Dev nD) (t : Fin cfg0.N) (r : Fin 2048) :
    (tblk m c t (ix2 r 0) : BitVec 32) = IntOp.minsi 1023#32 (IntOp.maxsi 0#32 (labels m c (ix1 (rowOf t r)))) := by
  obtain ⟨-, -, e0, e1⟩ := in_index t
  show iblk m c 1 t (ix2 r 0) = _
  unfold iblk
  rw [View.read_apply]
  have he : ((cfg0.win 1).blk t).view.emb (ix2 r (0 : Fin 1)) = ix2 (rowOf t r) (0 : Fin 1) := by
    funext a
    apply Fin.ext
    match a with
    | ⟨0, _⟩ => show win0_1.index t (0 : Fin 2) * 2048 + 1 * r.val = t.val * 2048 + r.val; rw [e0]; omega
    | ⟨1, _⟩ => show win0_1.index t (1 : Fin 2) * 1 + 1 * 0 = 0; rw [e1]
  show (V m c main_v1 : S262144x1.Idx → BitVec 32) (((cfg0.win 1).blk t).view.emb (ix2 r (0 : Fin 1))) = _
  rw [he, column_eq, shapeCast_a_a1_apply]
  rfl

/-- With the row's label in range, the one-hot sum keeps the probability in the label's column. -/
theorem kept_eq (c : Dev nD) (t : Fin cfg0.N) (r : Fin 2048) (hT : (labels m c (ix1 (rowOf t r))).toNat < 1024) :
    kept (tblk m c t) (pblk m c t) r = probs m c (ix2 (rowOf t r) (colOf (labels m c (ix1 (rowOf t r))))) := by
  unfold kept
  rw [tblk_apply, clamp_id _ hT]
  refine (onehot_sum _ hT fun k => pblk m c t (ix2 r k)).trans ?_
  rw [pblk_apply, colOf_of_lt _ hT]

/-- So a tile contributes the sum over its rows of `0 - rowLog`. -/
theorem tileSum_rows (c : Dev nD) (hT : ∀ R : Fin 262144, (labels m c (ix1 R)).toNat < 1024) (n : ℕ) (hn : n < 128) :
    tileSum m c n = ∑ r : Fin 2048, (0 - rowLog (probs m c) (labels m c) (n * 2048 + r.val)) := by
  have hN : cfg0.N = 128 := N_0
  have h : n < cfg0.N := by omega
  rw [show n = (⟨n, h⟩ : Fin cfg0.N).val from rfl, tileSum_eq]
  refine Finset.sum_congr rfl fun r _ => ?_
  rw [kept_eq m c ⟨n, h⟩ r (hT _)]
  have hr := r.isLt
  unfold rowLog
  rw [dif_pos (show n * 2048 + r.val < 262144 by omega)]
  rfl

end Cert.KernelIdeal.Rows

end
-- ==== Proof.SumLaws.lean ====
/-
  Two laws of finite sums of extended reals, over abstract index sets.

  On the extended reals `-(x + y) = -x + -y` fails exactly when one of `x`, `y` is `⊤` and the other `⊥`; a sum none of
  whose terms is `⊤` is not `⊤`, so negation passes through such a sum term by term. A sum over the numbers below
  `m * n` is the double sum over a quotient below `m` and a remainder below `n`.
-/
import Mathlib.Data.EReal.Operations
import Mathlib.Algebra.BigOperators.Fin
import Mathlib.Logic.Equiv.Fin.Basic

namespace Cert.SumLaws

open Finset

/-- A finite sum of extended reals none of which is `⊤` is not `⊤`, and its negative is the sum of the negatives. -/
theorem neg_sum_aux {ι : Type} [DecidableEq ι] (s : Finset ι) (f : ι → EReal) (h : ∀ i ∈ s, f i ≠ ⊤) :
    (∑ i ∈ s, f i) ≠ ⊤ ∧ -(∑ i ∈ s, f i) = ∑ i ∈ s, -(f i) := by
  induction s using Finset.induction_on with
  | empty => exact ⟨by simp, by simp⟩
  | insert a s ha ih =>
    obtain ⟨ht, e⟩ := ih fun i hi => h i (Finset.mem_insert_of_mem hi)
    have ha' : f a ≠ ⊤ := h a (Finset.mem_insert_self a s)
    rw [Finset.sum_insert ha, Finset.sum_insert ha]
    exact ⟨EReal.add_ne_top ha' ht, by rw [EReal.neg_add (Or.inr ht) (Or.inl ha'), sub_eq_add_neg, e]⟩

/-- Negation passes through a finite sum with no `⊤` term. -/
theorem neg_sum {ι : Type} [Fintype ι] (f : ι → EReal) (h : ∀ i, f i ≠ ⊤) : -(∑ i, f i) = ∑ i, -(f i) := by
  classical
  exact (neg_sum_aux Finset.univ f fun i _ => h i).2

/-- The sum over the numbers below `m * n` as a double sum: the number `r + n * t` for `t < m`, `r < n`. -/
theorem sum_fin_mul {M : Type} [AddCommMonoid M] (m n : ℕ) (g : ℕ → M) :
    ∑ R : Fin (m * n), g R.val = ∑ t : Fin m, ∑ r : Fin n, g (r.val + n * t.val) := by
  rw [← Equiv.sum_comp finProdFinEquiv, Fintype.sum_prod_type]
  rfl

end Cert.SumLaws
-- ==== Proof.TotalLaw.lean ====
/-
  The law that joins the two sides of the negative log-likelihood.

  With `q n` the logarithm of the probability picked in row `n`, one side adds up `0 - q` tile by tile — 2048 rows to a
  tile, 64 tiles to a half, two halves — and the other negates the sum of `q` over all 262144 rows. Both are the sum of
  `-q` over the rows: regrouping a finite sum of extended reals is free, `0 - x = -x`, and negation passes through a sum
  none of whose terms is `⊤`.
-/
import proofs.«409475_j54322746359839_2_alg».proof.Proof.SumLaws

namespace Cert.TotalLaw

open Finset Cert.SumLaws

/-- Tile by tile and half by half, the sum of the negated row terms is the negated sum over all rows. -/
theorem tiles_eq_neg_total (q : ℕ → EReal) (hq : ∀ n, q n ≠ ⊤) :
    ∑ i : Fin 2, ∑ k ∈ Finset.range 64, ∑ r : Fin 2048, (0 - q ((64 * i.val + k) * 2048 + r.val))
      = -(∑ R : Fin 262144, q R.val) := by
  rw [neg_sum (fun R : Fin 262144 => q R.val) fun R => hq R.val]
  have h1 : ∑ R : Fin 262144, -(q R.val) = ∑ t : Fin 128, ∑ r : Fin 2048, -(q (r.val + 2048 * t.val)) :=
    sum_fin_mul 128 2048 fun n => -(q n)
  have h2 : ∑ t : Fin 128, ∑ r : Fin 2048, -(q (r.val + 2048 * t.val))
      = ∑ i : Fin 2, ∑ j : Fin 64, ∑ r : Fin 2048, -(q (r.val + 2048 * (j.val + 64 * i.val))) :=
    sum_fin_mul 2 64 fun n => ∑ r : Fin 2048, -(q (r.val + 2048 * n))
  rw [h1, h2]
  refine Finset.sum_congr rfl fun i _ => ?_
  rw [← Fin.sum_univ_eq_sum_range (fun k => ∑ r : Fin 2048, (0 - q ((64 * i.val + k) * 2048 + r.val))) 64]
  refine Finset.sum_congr rfl fun j _ => Finset.sum_congr rfl fun r _ => ?_
  rw [zero_sub]
  exact congrArg (fun n => -(q n)) (by omega)

end Cert.TotalLaw
-- ==== Proof.KernelRun.lean ====
/-
  The kernel program's result.

  After the region the host takes entry `(i, 0, 0)` of each half's block, lays the two out as a vector and adds them
  up from zero. With every label in range each half's total is the sum, over its 64 tiles and their 2048 rows, of
  `0 - rowLog`; the two halves together run over all 262144 rows, and the sum of the negated row logarithms is the
  negated sum, no logarithm of a finite probability being `⊤`.
-/
import proofs.«409475_j54322746359839_2_alg».proof.Proof.Rows
import proofs.«409475_j54322746359839_2_alg».proof.Proof.TotalLaw
import Idealize.ShloMosaic.Lib.IdealHost
import Idealize.ShloMosaic.Lib.ValueIdxRank1

set_option maxRecDepth 16384

noncomputable section

open Idealize.ShloMosaic Idealize.ShloMosaic.TcCoe Idealize.SL.Sem Idealize.ShloMosaic.StableHlo Idealize.ShloMosaic.ValueIdx

namespace Cert.KernelIdeal.Run

open Cert.KernelIdeal Cert.KernelIdeal.Gen Cert.KernelIdeal.Tiles Cert.KernelIdeal.Rows Cert.RowLog

variable (m : (ℓ : Loc nD τ sig) → Buf (Elt Ideal) ℓ) (ρ : Dev nD → PrngReg)

/-- What the result buffer holds after the run: the host's lines after the region, applied to the output array. -/
def result (c : Dev nD) : Buf (Elt Ideal) ((c : Thread nD τ).loc main_v5) :=
  Pipeline.afterTail₀ cfgs (dats m) 0 (V0 m) [hostOps1] c main_v5

/-- The run, re-posted: the result buffer at `result`, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).2 main_v5 (Pipeline.mem_restRefs_of main_v5 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The lines after the region: the slice `[0:2, 0:1, 0:1]` of the halves' totals, as a vector, summed from zero. -/
theorem result_eq (c : Dev nD) : result m c
    = Host.reduceAdd (F := Ideal) (shapeCast S2 (extractStridedSlice S2x1x1 ![0, 0, 0] (halves m c) slices_S2x8x128_S2x1x1_0_0_0) shapeCasts_S2x1x1_S2)
        (constant (F := Ideal) S_ .f32 0x00000000#32) reducesTo_S2_S_d0 h_S_ := by
  unfold result Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v2) = halves m c :=
    (Pipeline.withArrays_arr spec0 launch0.win.arr_inj c _ _ 2).trans (final m c)
  rw [hw]
  rfl

/-- Read at its one index: the two halves' totals added up. -/
theorem result_apply (c : Dev nD) : (result m c : S_.Idx → EReal) ix0 = ∑ i : Fin 2, halfTotal m c i.val := by
  rw [result_eq, hostReduceAdd_apply]
  refine (Ideal.hostReduceAdd_total reducesTo_S2_S_d0 (fun b => b.elim0) _ _ ix0).trans ?_
  rw [constant_apply, Ideal.ofBits_zero_f32, zero_add, ← Equiv.sum_comp (idxEquiv1 (n := 2)).symm]
  refine Finset.sum_congr rfl fun k _ => ?_
  show shapeCast S2 _ shapeCasts_S2x1x1_S2 (ix1 k) = _
  refine (shapeCast_apply _ _ (ix1 k) (ix3 k (0 : Fin 1) (0 : Fin 1)) (by
    rw [Shape.rowMajor_val_three, Shape.rowMajor_val_one]
    show (k.val * 1 + 0) * 1 + 0 = k.val
    omega)).trans ?_
  refine (extractStridedSlice_apply _ _ _ (ix3 k (0 : Fin 1) (0 : Fin 1)) (ix3 k (0 : Fin 8) (0 : Fin 128)) fun a => ?_).trans rfl
  match a with
  | ⟨0, _⟩ => show k.val = 0 + k.val; omega
  | ⟨1, _⟩ => rfl
  | ⟨2, _⟩ => rfl

/-- With every label in range and no probability `⊤`, the kernel program's result is the negated sum of the rows'
    logarithms. -/
theorem result_value (c : Dev nD) (hT : ∀ R : Fin 262144, (labels m c (ix1 R)).toNat < 1024) (hP : ∀ i, probs m c i ≠ ⊤) :
    (result m c : S_.Idx → EReal) = fun _ => -(∑ R : Fin 262144, rowLog (probs m c) (labels m c) R.val) := by
  have key : (∑ i : Fin 2, halfTotal m c i.val) = -(∑ R : Fin 262144, rowLog (probs m c) (labels m c) R.val) := by
    refine (Finset.sum_congr rfl fun i _ => ?_).trans
      (Cert.TotalLaw.tiles_eq_neg_total (rowLog (probs m c) (labels m c)) (rowLog_ne_top _ _ hP))
    unfold halfTotal
    refine Finset.sum_congr rfl fun k hk => ?_
    have hk' : k < 64 := Finset.mem_range.mp hk
    have hi := i.isLt
    exact tileSum_rows m c hT (64 * i.val + k) (by omega)
  funext j
  obtain rfl : j = ix0 := eq_ix0 j
  exact (result_apply m c).trans key

end Cert.KernelIdeal.Run

end
-- ==== Proof.LibTakeAlongAxis.lean ====
/-
  A batched `stablehlo.gather` along the last axis of a matrix, read at an index.

  What `jnp.take_along_axis(x, idx[:, None], axis=1)` of a matrix `x : [N, C]` lowers to: `lax.gather` with no offset
  axes, collapsed_slice_dims `[1]`, operand_batching_dims `[0]` paired with start_indices_batching_dims `[0]`,
  start_index_map `[1]`, slice_sizes `[1, 1]` and index_vector_dim 2 over the indices as `[N, 1, 1]`; the result is
  `[N, 1]`. Result element `(p, 0)` is row `p` of `x` at the start index `idx[p, 0, 0]` read as a signed integer and
  clamped into `[0, C − 1]`, as StableHLO's gather clamps every start index (PureOps/ShapeOps.lean `Host.gather`):
  the batching axis carries the row, the start index the column.
-/
import Idealize.ShloMosaic.Lib.ValueIdx

noncomputable section

namespace Idealize.ShloMosaic.ValueIdx

open Idealize.ShloMosaic

section AlongLast
variable {α : Type}

/-- Those dimension numbers for an operand `[N, C]`, start indices `[N, 1, 1]` and result `[N, 1]`; their conditions
    `wf` are decided on a program's literal shapes. -/
abbrev alongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT `(p, 0)`: row `p` of the operand at the start index `idx[p, 0, 0]`, read signed and clamped
    into `[0, C − 1]`. -/
theorem gather_along_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (p : Fin N) :
    Host.gather (alongDims N C wf) x idx (ix2 p (0 : Fin 1))
      = x (ix2 p ⟨min (idx (ix3 p (0 : Fin 1) (0 : Fin 1))).toInt.toNat (C - 1), by omega⟩) := by
  unfold Host.gather
  congr 1
  funext a
  refine Fin.ext ?_
  show (alongDims N C wf).start (ix2 p (0 : Fin 1)) idx a + (alongDims N C wf).batchCoord (ix2 p (0 : Fin 1)) a
    + (alongDims N C wf).offCoord (ix2 p (0 : Fin 1)) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (alongDims N C wf).operandBatchingDims from List.mem_singleton.mpr rfl)]
    rfl
  | ⟨1, _⟩ =>
    rw [GatherDims.batchCoord_eq_zero _ _ _ (fun h => by simpa using h),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (alongDims N C wf).startIndexMap from List.mem_singleton.mpr rfl)]
    have hsi : (alongDims N C wf).siIdx (ix2 p (0 : Fin 1)) ⟨List.idxOf (⟨1, by decide⟩ : Fin 2) (alongDims N C wf).startIndexMap,
        List.idxOf_lt_length_iff.2 (List.mem_singleton.mpr rfl)⟩ = ix3 p (0 : Fin 1) (0 : Fin 1) := by
      funext b; refine Fin.ext ?_
      match b with
      | ⟨0, _⟩ => rfl
      | ⟨1, _⟩ => rfl
      | ⟨2, _⟩ => rfl
    rw [hsi]
    rfl

end AlongLast

end Idealize.ShloMosaic.ValueIdx
-- ==== Proof.LibReduceAndOne.lean ====
/-
  A `stablehlo.reduce` by `and`, read forwards.

  The library reads a reduce by `and` that came out 1 backwards (Lib/ReduceAll.lean: every element that reduces
  into the result was 1). This is the converse: from the initial value 1, the reduce is 1 at every result index
  all of whose contributing elements are 1 — what a proof needs when an operation guards a read with an
  in-bounds test that holds (jnp's `take_along_axis` selects its gathered value under such a test).
-/
import Idealize.ShloMosaic.PureOps.Reduce
import Idealize.ShloMosaic.PureOps.Contract

namespace Idealize.ShloMosaic

namespace IntOp

/-- A left fold by `and` from 1 over `i1` words that are all 1 is 1. -/
theorem foldl_andi_one {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    show l.foldl (fun r n => andi r (f n)) (andi 1#1 1#1) = 1#1
    exact foldl_andi_one f l fun n hn => h n (List.mem_cons_of_mem _ hn)

end IntOp

namespace Host

variable {s t u : Shape} {axes : List (Fin s.rank)}

/-- A `stablehlo.reduce` by `and` from the initial value 1 is 1 at `j` when every operand element that reduces
    into `j` is 1. -/
theorem reduce_andi_one (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  unfold Host.reduce
  rw [hinit]
  refine IntOp.foldl_andi_one (fun n => x (s.rowMajor.symm n)) _ fun n hn => hx _ ?_
  have := (List.mem_filter.mp hn).2
  simpa using this

end Host

end Idealize.ShloMosaic
-- ==== Proof.RefValue.lean ====
/-
  The reference program's result.

  `take_along_axis` adds 1024 to a negative index, tests the result against `[0, 1023]`, gathers (the gather clamps
  its start index into the row) and keeps the gathered value where the test holds. With every label in `[0, 1023]`
  nothing is added, the test holds and the clamp changes nothing: row `R` yields the probability in its label's
  column. The reference then takes logarithms, adds them up from zero and negates.
-/
import proofs.«409475_j54322746359839_2_alg».proof.Proof.RefRead
import proofs.«409475_j54322746359839_2_alg».proof.Proof.RowLog
import proofs.«409475_j54322746359839_2_alg».proof.Proof.LibTakeAlongAxis
import proofs.«409475_j54322746359839_2_alg».proof.Proof.LibReduceAndOne
import Idealize.ShloMosaic.Lib.ValueIdx
import Idealize.ShloMosaic.Lib.ValueIdxRank1
import Idealize.ShloMosaic.Lib.StableHlo.Predicate

set_option maxRecDepth 16384

noncomputable section

open Idealize.ShloMosaic Idealize.ShloMosaic.ValueIdx

namespace Cert.ReferenceIdeal.RefValue

open Cert.ReferenceIdeal Cert.ReferenceIdeal.Gen Cert.ReferenceIdeal.ReadP Cert.RowLog Idealize.ShloMosaic.StableHlo

variable (P : (⟨S262144x1024, .f32⟩ : BufTy).Contents (Elt Ideal)) (T : (⟨S262144, .i32⟩ : BufTy).Contents (Elt Ideal))

/-- The label an index of the `[262144, 1, 1]` start indices reads. -/
abbrev labelAt (i : S262144x1x1.Idx) : BitVec 32 := T (idx_main_v0 (idx_main_call0_v5 i))

/-- With the labels in range the start indices are the labels: no label is negative, so none has 1024 added. -/
theorem start_eq (hT : ∀ j, (T j : BitVec 32).toNat < 1024) (i : S262144x1x1.Idx) :
    val_main_call0_v5 (F := Ideal) T i = labelAt T i := by
  rw [val_main_call0_v5_apply, val_main_call0_v4_apply, val_main_call0_v1_apply, val_main_v0_apply, val_main_call0_v0_apply,
    val_main_call0_c_apply]
  have hw := hT (idx_main_v0 (idx_main_call0_v5 i))
  have hc : ¬IntOp.cmpi .slt (T (idx_main_v0 (idx_main_call0_v5 i)) : BitVec 32) 0#32 = 1#1 := by
    rw [Predicate.slt_iff_toNat (by omega) (by decide)]
    show ¬_ < 0
    omega
  rw [eq_zero_of_ne_one hc, select_zero]

/-- With the labels in range every start index passes the in-bounds test. -/
theorem inbounds_eq (hT : ∀ j, (T j : BitVec 32).toNat < 1024) (i : S262144x1.Idx) :
    val_main_call0_v12 (F := Ideal) T i = 1#1 := by
  unfold val_main_call0_v12
  refine Host.reduce_andi_one _ _ _ _ i rfl fun k _ => ?_
  rw [val_main_call0_v11_apply, val_main_call0_v7_apply, val_main_call0_v10_apply, start_eq T hT k, val_main_call0_v6_apply,
    val_main_call0_c_2_apply, val_main_call0_v9_apply, val_main_call0_v8_apply, val_main_call0_c_1_apply]
  have hw : (labelAt T k).toNat < 1024 := hT (idx_main_v0 (idx_main_call0_v5 k))
  rw [(Predicate.sge_iff_toNat (a := labelAt T k) (b := 0#32) (by omega) (by decide)).mpr (by show 0 ≤ _; omega),
    (Predicate.sle_iff_toNat (a := labelAt T k) (b := 1023#32) (by omega) (by decide)).mpr (by show _ ≤ 1023; omega)]
  rfl

/-- With the labels in range the gather reads, in row `R`, the column the row's label names. -/
theorem gathered_eq (hT : ∀ j, (T j : BitVec 32).toNat < 1024) (R : Fin 262144) :
    val_main_call0_v13 (F := Ideal) P T (ix2 R (0 : Fin 1)) = P (ix2 R (colOf (T (ix1 R)))) := by
  unfold val_main_call0_v13
  show Host.gather (alongDims 262144 1024 gather_S262144x1024_S262144x1x1_S262144x1_n_1_0_0_1_2_11_wf) P
    (val_main_call0_v5 (F := Ideal) T) (ix2 R (0 : Fin 1)) = _
  rw [gather_along_apply (by decide)]
  have hi : idx_main_v0 (idx_main_call0_v5 (ix3 R (0 : Fin 1) (0 : Fin 1))) = ix1 R := by
    funext a
    apply Fin.ext
    match a with
    | ⟨0, _⟩ => show ((R.val * 1 + 0) * 1 + 0) / 1 = R.val; omega
  have hw := hT (ix1 R)
  refine congrArg P (congrArg (ix2 R) (Fin.ext ?_))
  show min (val_main_call0_v5 (F := Ideal) T (ix3 R (0 : Fin 1) (0 : Fin 1))).toInt.toNat (1024 - 1) = (T (ix1 R) : BitVec 32).toNat % 1024
  rw [start_eq T hT]
  unfold labelAt
  rw [hi, Predicate.toInt_eq_toNat_of_lt (by omega)]
  omega

/-- Row `R`'s logarithm in the reference is `rowLog`. -/
theorem log_eq (hT : ∀ j, (T j : BitVec 32).toNat < 1024) (R : Fin 262144) :
    val_main_v3 (F := Ideal) P T (ix1 R) = rowLog P T R.val := by
  rw [val_main_v3_apply, Ideal.hostUnary_log_def, val_main_v2_apply]
  have hi : idx_main_v2 (ix1 R) = ix2 R (0 : Fin 1) := by
    funext a
    apply Fin.ext
    match a with
    | ⟨0, _⟩ => show R.val / 1 = R.val; omega
    | ⟨1, _⟩ => rfl
  rw [hi, val_main_v1_apply, inbounds_eq T hT, select_one, gathered_eq P T hT]
  unfold rowLog
  rw [dif_pos R.isLt]

/-- With the labels in range the reference's result is the negated sum of the rows' logarithms. -/
theorem result_value (hT : ∀ j, (T j : BitVec 32).toNat < 1024) :
    (val_main_v5 (F := Ideal) P T : S_.Idx → EReal) = fun _ => -(∑ R : Fin 262144, rowLog P T R.val) := by
  have key : (val_main_v4 (F := Ideal) P T : S_.Idx → EReal) ix0 = ∑ R : Fin 262144, rowLog P T R.val := by
    rw [val_main_v4_apply, val_main_cst_apply, Ideal.ofBits_def, Ideal.ofBits_zero_f32, zero_add,
      ← Equiv.sum_comp (idxEquiv1 (n := 262144)).symm]
    exact Finset.sum_congr rfl fun R _ => log_eq P T hT R
  funext j
  obtain rfl : j = ix0 := eq_ix0 j
  rw [val_main_v5_apply, Ideal.hostNegf_def, Ideal.negf_def]
  exact congrArg (fun z : EReal => -z) key

end Cert.ReferenceIdeal.RefValue

end
-- ==== Proof.PreFacts.lean ====
/-
  What the precondition says of the arguments.

  The precondition is the conjunction of three tests, each over a whole array: every probability's absolute value is
  below `+∞`; every label is at least 0; every label is below 1024, the labels read as signed words. So no probability
  is `⊤`, and every label word, read as a natural number, is below 1024.
-/
import proofs.«409475_j54322746359839_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.PreFacts

open Idealize.ShloMosaic Idealize.ShloMosaic.ValueIdx Cert.Pre_finite_inputs Cert.Pre_finite_inputs.Gen

instance : Subsingleton S_.Idx := ⟨fun a b => funext fun d => d.elim0⟩

/-- A signed word between 0 and 1023 is below 1024 as a natural number. -/
theorem toNat_lt_of_signed (w : BitVec 32) (h0 : (0#32 : BitVec 32).toInt ≤ w.toInt) (h1 : w.toInt < (1024#32 : BitVec 32).toInt) :
    w.toNat < 1024 := by
  have e0 : (0#32 : BitVec 32).toInt = 0 := by decide
  have e1 : (1024#32 : BitVec 32).toInt = 1024 := by decide
  have hc := BitVec.toInt_eq_toNat_cond w
  have hl := w.isLt
  split at hc <;> omega

/-- The precondition, decoded. -/
theorem decode (P : FVec Ideal S262144x1024 .f32) (T : IVec S262144 32) (h : fn (F := Ideal) P T = fun _ => 1#1) :
    (∀ i, P i ≠ ⊤) ∧ (∀ j, (T j).toNat < 1024) := by
  have h0 := congrFun h ix0
  dsimp only [fn] at h0
  have h0' : IntOp.andi (IntOp.andi _ _) _ = 1#1 := h0
  obtain ⟨h12, h3⟩ := IntOp.andi_eq_one.mp h0'
  obtain ⟨h1, h2⟩ := IntOp.andi_eq_one.mp h12
  refine ⟨fun i => ?_, fun j => ?_⟩
  · have e := Host.reduce_andi_all _ _ _ _ _ h1 i
    have e' : Ideal.cmp .olt (max (P i) (-(P i))) (Ideal.ofBits .f32 0x7F800000#32) = 1#1 := e
    have htop : Ideal.ofBits .f32 0x7F800000#32 = ⊤ := by simp [Ideal.ofBits, Ideal.ieee]
    rw [htop] at e'
    have hlt : max (P i) (-(P i)) < ⊤ := by
      by_contra hn
      have hz : Ideal.cmp .olt (max (P i) (-(P i))) ⊤ = 0#1 := by simp [Ideal.cmp, hn]
      rw [hz] at e'
      exact absurd e' (by decide)
    exact ne_top_of_lt (lt_of_le_of_lt (le_max_left _ _) hlt)
  · have e2 := Host.reduce_andi_all _ _ _ _ _ h2 j
    have e3 := Host.reduce_andi_all _ _ _ _ _ h3 j
    have e2' : IntOp.cmpi .sge (T j) 0#32 = 1#1 := e2
    have e3' : IntOp.cmpi .slt (T j) 1024#32 = 1#1 := e3
    exact toNat_lt_of_signed _ (IntOp.cmpi_sge.mp e2') (IntOp.cmpi_slt.mp e3')

end Cert.PreFacts

end
-- ==== Proof.lean ====
/-
  A negative log-likelihood over 262144 rows of 1024 probabilities: the kernel against `-sum(log(take_along_axis(p, t)))`.

  Under the precondition every probability is finite and every label lies in `[0, 1023]`.

  The kernel clamps the labels (a no-op on labels in range), walks the rows in two halves of 64 tiles of 2048 rows,
  and in each tile picks a row's probability by a one-hot mask — the sum over the columns of the entry where the column
  number is the label, zero elsewhere, which is the entry in the label's column —, takes `0 - log` of it, adds up the
  tile's rows and adds that to a running total kept in a one-entry scratch; the last tile of a half stores the total
  to the half's output block, and the host adds the two halves' totals. So the kernel's result is the sum, over all
  rows, of `-log` of the probability under the row's label.

  The reference gathers the same probability (no label is negative, so nothing wraps; every label passes the bounds
  test; the gather's clamp changes nothing), takes logarithms, adds them up and negates.

  The two agree because a finite sum of extended reals may be regrouped freely and negation passes through a sum none
  of whose terms is `⊤`; the logarithm of a finite probability is a real number or `⊥`, never `⊤`. (With an infinite
  probability the law fails: a `⊤` and a `⊥` among the logarithms add up differently before and after negation.)
-/
import proofs.«409475_j54322746359839_2_alg».proof.Defs
import proofs.«409475_j54322746359839_2_alg».proof.Proof.Gen.Kernel
import proofs.«409475_j54322746359839_2_alg».proof.Proof.Gen.Kernel.Frame
import proofs.«409475_j54322746359839_2_alg».proof.Proof.Gen.KernelIdeal
import proofs.«409475_j54322746359839_2_alg».proof.Proof.Gen.KernelIdeal.Frame
import proofs.«409475_j54322746359839_2_alg».proof.Proof.Gen.ReferenceIdeal
import proofs.«409475_j54322746359839_2_alg».proof.Proof.Gen.Pre_finite_inputs
import proofs.«409475_j54322746359839_2_alg».proof.Proof.KernelRun
import proofs.«409475_j54322746359839_2_alg».proof.Proof.RefValue
import proofs.«409475_j54322746359839_2_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end at the negated sum of the rows' logarithms. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  obtain ⟨hP, hT⟩ := Cert.PreFacts.decode _ _ (hpre c)
  exact ((Cert.ReferenceIdeal.ReadP.val_main_v5_eq _ _).trans (Cert.ReferenceIdeal.RefValue.result_value _ _ hT)).trans
    (Cert.KernelIdeal.Run.result_value m c (fun R => hT (ix1 R)) hP).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
